-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S1024x4096, .bf16⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x4096, .f32⟩
  | .hbm, ⟨26, _⟩ => ⟨S1024x4096, .bf16⟩
  | .hbm, ⟨27, _⟩ => ⟨S4096, .f32⟩
  | .hbm, ⟨28, _⟩ => ⟨S1x4096, .f32⟩
  | .hbm, ⟨29, _⟩ => ⟨S4096x1024, .f32⟩
  | .hbm, ⟨30, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S4096x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S1024x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KernelFrame.lean ====
/-
  The frame of the LSTM kernel's program: every weakly fair execution ends, nothing faults, and the fifteen argument
  arrays end as they were launched.

  The program is fourteen host operations (four transposes and a concatenation along the columns for each of the two
  fused weight matrices, rounded to bf16; the four biases concatenated into one row) and then ONE pipelined region of 32
  grid points. At point `t` the body reads the 128-row blocks `t` of `x`, `h` and `c`, the two whole fused weight
  matrices and the bias row, and writes the 128-row blocks `t` of the two results; each result block is written by one
  store that covers it, so what the body leaves there is a function of the six blocks it read and of nothing else.
  That is the whole argument: the inputs' staging buffers hold their blocks at every point (fetched there, or, for the
  three windows whose block index never moves, fetched once and left in place), the outputs' are overwritten whole, no
  host operation writes an argument array, and no window writes one either.
-/
import proofs.«166687_j47588237639946_1_alg».proof.Proof.Gen.Kernel.Launch
import proofs.«166687_j47588237639946_1_alg».proof.Proof.Gen.Kernel.Skeleton
import proofs.«166687_j47588237639946_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch memory after the fourteen host operations. -/
abbrev V (c : Dev nD) (b : Ref sig .tc) : Buf (Elt F) ((c : Thread nD τ).loc b) := StableHlo.after hostOps0 (fun b => m (c, b)) b

/-- Each host operation writes only its own result buffer. -/
theorem hostOps0_fresh : (hostOps0 : List (HloOp τ sig (Elt F))).Forall fun op => op.fresh = ∅ := by
  simp only [List.Forall]; repeat' constructor

/-- The program is its host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation ahead of the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the pipeline fetched it there or the
    block index has not moved since it did: for any proof data over the arrays `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run that names the arrays to the frame -/

/-- A run ending with every pipeline array at what the write-backs leave and every other buffer as the region found it
    ends with the argument arrays as launched: three are inputs of the pipeline, which writes no input back; twelve
    are staged by no window; and no host operation wrote any of the fifteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses and what it leaves -/

/-- The whole of a 128 × 1024 block, of a fused weight matrix, of the bias row. -/
abbrev rBlk : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The hidden-state block the body leaves, from the six blocks it read (`x`, `h`, `c`, the two weight matrices, the
    bias row): its one store's payload, laid over the whole block. -/
def outH (x h c : Vec F S128x1024 .f32) (wx wh : Vec F S1024x4096 .bf16) (b : Vec F S1x4096 .f32) : Vec F S128x1024 .f32 :=
  View.canon [⟨rBlk, k0_pay3 (View.ld x rBlk) (View.ld h rBlk) (View.ld wx rW) (View.ld wh rW) (View.ld b rB) (View.ld c rBlk)⟩]

/-- The cell-state block the body leaves. -/
def outC (x h c : Vec F S128x1024 .f32) (wx wh : Vec F S1024x4096 .bf16) (b : Vec F S1x4096 .f32) : Vec F S128x1024 .f32 :=
  View.canon [⟨rBlk, k0_pay2 (View.ld x rBlk) (View.ld h rBlk) (View.ld wx rW) (View.ld wh rW) (View.ld b rB) (View.ld c rBlk)⟩]

/-- One store through the whole block covers it. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 4000000 in
/-- The body on whole staging memrefs — the six inputs' at read contents, the two outputs' at anything — runs to the
    continuation with the inputs' as they were and the outputs' at `outH` and `outC` of the inputs'. (The body also
    loads each output buffer before storing into it; the loaded values are used nowhere.) -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h cc wx wh b) ∗ owns (c : Thread nD τ) arg8 fullShare (outC x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- On core `c`: the arrays as the region finds them; after the body at point `t` each input's buffer at its block
    and the two outputs' at `outH`, `outC` of the six input blocks; nothing of the body's own beyond the staging buffers;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. The body's arguments come in the kernel function's order: `x`, `h`, `c`, then the weights and bias. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, with every array of the pipeline at what its write-backs leave
    and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.KernelIdealFrame.lean ====
/-
  The frame of the LSTM kernel's program: every weakly fair execution ends, nothing faults, and the fifteen argument
  arrays end as they were launched.

  The program is fourteen host operations (four transposes and a concatenation along the columns for each of the two
  fused weight matrices, rounded to bf16; the four biases concatenated into one row) and then ONE pipelined region of 32
  grid points. At point `t` the body reads the 128-row blocks `t` of `x`, `h` and `c`, the two whole fused weight
  matrices and the bias row, and writes the 128-row blocks `t` of the two results; each result block is written by one
  store that covers it, so what the body leaves there is a function of the six blocks it read and of nothing else.
  That is the whole argument: the inputs' staging buffers hold their blocks at every point (fetched there, or, for the
  three windows whose block index never moves, fetched once and left in place), the outputs' are overwritten whole, no
  host operation writes an argument array, and no window writes one either.
-/
import proofs.«166687_j47588237639946_1_alg».proof.Proof.Gen.KernelIdeal.Launch
import proofs.«166687_j47588237639946_1_alg».proof.Proof.Gen.KernelIdeal.Skeleton
import proofs.«166687_j47588237639946_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch memory after the fourteen host operations. -/
abbrev V (c : Dev nD) (b : Ref sig .tc) : Buf (Elt F) ((c : Thread nD τ).loc b) := StableHlo.after hostOps0 (fun b => m (c, b)) b

/-- Each host operation writes only its own result buffer. -/
theorem hostOps0_fresh : (hostOps0 : List (HloOp τ sig (Elt F))).Forall fun op => op.fresh = ∅ := by
  simp only [List.Forall]; repeat' constructor

/-- The program is its host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation ahead of the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation ahead of the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the pipeline fetched it there or the
    block index has not moved since it did: for any proof data over the arrays `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run that names the arrays to the frame -/

/-- A run ending with every pipeline array at what the write-backs leave and every other buffer as the region found it
    ends with the argument arrays as launched: three are inputs of the pipeline, which writes no input back; twelve
    are staged by no window; and no host operation wrote any of the fifteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses and what it leaves -/

/-- The whole of a 128 × 1024 block, of a fused weight matrix, of the bias row. -/
abbrev rBlk : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The hidden-state block the body leaves, from the six blocks it read (`x`, `h`, `c`, the two weight matrices, the
    bias row): its one store's payload, laid over the whole block. -/
def outH (x h c : Vec F S128x1024 .f32) (wx wh : Vec F S1024x4096 .bf16) (b : Vec F S1x4096 .f32) : Vec F S128x1024 .f32 :=
  View.canon [⟨rBlk, k0_pay3 (View.ld x rBlk) (View.ld h rBlk) (View.ld wx rW) (View.ld wh rW) (View.ld b rB) (View.ld c rBlk)⟩]

/-- The cell-state block the body leaves. -/
def outC (x h c : Vec F S128x1024 .f32) (wx wh : Vec F S1024x4096 .bf16) (b : Vec F S1x4096 .f32) : Vec F S128x1024 .f32 :=
  View.canon [⟨rBlk, k0_pay2 (View.ld x rBlk) (View.ld h rBlk) (View.ld wx rW) (View.ld wh rW) (View.ld b rB) (View.ld c rBlk)⟩]

/-- One store through the whole block covers it. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 4000000 in
/-- The body on whole staging memrefs — the six inputs' at read contents, the two outputs' at anything — runs to the
    continuation with the inputs' as they were and the outputs' at `outH` and `outC` of the inputs'. (The body also
    loads each output buffer before storing into it; the loaded values are used nowhere.) -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h cc wx wh b) ∗ owns (c : Thread nD τ) arg8 fullShare (outC x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- On core `c`: the arrays as the region finds them; after the body at point `t` each input's buffer at its block
    and the two outputs' at `outH`, `outC` of the six input blocks; nothing of the body's own beyond the staging buffers;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. The body's arguments come in the kernel function's order: `x`, `h`, `c`, then the weights and bias. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, with every array of the pipeline at what its write-backs leave
    and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.KernelBody.lean ====
/-
  The kernel body's three payloads read at an index, over the extended reals.
  The block of pre-activations at row `p`, column `q` is the sum over the contraction axis of the x-block's row times
  the x-weights' column, plus the same for the h-block and the h-weights, plus the bias row's entry at `q`: the two
  truncations and the three identity shape casts change nothing, a matrix product into the zero splat is its sum, and
  the one bias row is read at every row. The new cell entry at column `j` reads the pre-activations at columns
  `j`, `1024 + j`, `2048 + j` (input, forget, candidate), the new hidden entry at `3072 + j` (output): each
  column slice reads its source at the offset plus the column.
-/
import proofs.«166687_j47588237639946_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The matrix product's operand indices, axis by axis -/

/-- The left operand's row is the result's row. -/
theorem lhs_dot_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl
/-- The left operand's column is the contraction coordinate. -/
theorem lhs_dot_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
/-- The right operand's row is the contraction coordinate. -/
theorem rhs_dot_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
/-- The right operand's column is the result's column. -/
theorem rhs_dot_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

/-- A 128x1024 block times a 1024x4096 block into the zero splat, at row `p` and column `q`: the sum over the
    contraction coordinate of the row's entry times the column's. -/
theorem matmul_zero_at (a : FVec Ideal S128x1024 .bf16) (b : FVec Ideal S1024x4096 .bf16) (p : Fin 128) (q : Fin 4096) :
    matmul dot_S128x1024_S1024x4096_S128x4096_1_0_0_1_n_n none a b (constant S128x4096 .f32 0x00000000#32) (ix2 p q)
      = ∑ k : Fin 1024, a (ix2 p k) * b (ix2 k q) := by
  simp only [matmul]
  rw [Ideal.matmul_constant_zero_apply,
    ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p q)
      ((contrEquiv1 dot_S128x1024_S1024x4096_S128x4096_1_0_0_1_n_n 1024 rfl rfl).symm k) = ix2 p k :=
    funext fun ax => Fin.ext (by
      match ax with
      | ⟨0, _⟩ => exact lhs_dot_0 _ _
      | ⟨1, _⟩ => exact (lhs_dot_1 _ _).trans hk)
  have er : dot_S128x1024_S1024x4096_S128x4096_1_0_0_1_n_n.rhsIdx (ix2 p q)
      ((contrEquiv1 dot_S128x1024_S1024x4096_S128x4096_1_0_0_1_n_n 1024 rfl rfl).symm k) = ix2 k q :=
    funext fun ax => Fin.ext (by
      match ax with
      | ⟨0, _⟩ => exact (rhs_dot_0 _ _).trans hk
      | ⟨1, _⟩ => exact rhs_dot_1 _ _)
  rw [el, er]

/-! ## The three payloads at an index -/

/-- The pre-activation block at row `p`, column `q`: the x-path sum plus the h-path sum, plus the bias row at `q`. -/
theorem pre_at (v0 v2 : Vec Ideal S128x1024 .f32) (v4 v7 : Vec Ideal S1024x4096 .bf16) (v11 : Vec Ideal S1x4096 .f32)
    (p : Fin 128) (q : Fin 4096) :
    k0_pay1 (F := Ideal) v0 v2 v4 v7 v11 (ix2 p q)
      = ((∑ k : Fin 1024, v0 (ix2 p k) * v4 (ix2 k q)) + ∑ k : Fin 1024, v2 (ix2 p k) * v7 (ix2 k q))
        + v11 (ix2 (0 : Fin 1) q) := by
  unfold k0_pay1
  simp only [addf_apply, matmul_zero_at, broadcastTo_1b_ab_apply, shapeCast_self, truncf_apply]

/-- The new cell block at row `p`, column `j`: forget gate times the old cell entry plus input gate times candidate. -/
theorem cell_at (v0 v2 : Vec Ideal S128x1024 .f32) (v4 v7 : Vec Ideal S1024x4096 .bf16) (v11 : Vec Ideal S1x4096 .f32)
    (v23 : Vec Ideal S128x1024 .f32) (p : Fin 128) (j : Fin 1024) :
    k0_pay2 (F := Ideal) v0 v2 v4 v7 v11 v23 (ix2 p j)
      = Ideal.logistic (k0_pay1 (F := Ideal) v0 v2 v4 v7 v11 (ix2 p ⟨1024 + j.val, by omega⟩)) * v23 (ix2 p j)
        + Ideal.logistic (k0_pay1 (F := Ideal) v0 v2 v4 v7 v11 (ix2 p ⟨j.val, by omega⟩))
          * Ideal.tanh (k0_pay1 (F := Ideal) v0 v2 v4 v7 v11 (ix2 p ⟨2048 + j.val, by omega⟩)) := by
  unfold k0_pay2
  simp only [addf_apply, mulf_apply, logistic, tanh, Ideal.logistic_def, Ideal.tanh_def, slice2_axis1_eq, Nat.zero_add]

/-- The new hidden block at row `p`, column `j`: output gate times the hyperbolic tangent of the new cell entry. -/
theorem hidden_at (v0 v2 : Vec Ideal S128x1024 .f32) (v4 v7 : Vec Ideal S1024x4096 .bf16) (v11 : Vec Ideal S1x4096 .f32)
    (v23 : Vec Ideal S128x1024 .f32) (p : Fin 128) (j : Fin 1024) :
    k0_pay3 (F := Ideal) v0 v2 v4 v7 v11 v23 (ix2 p j)
      = Ideal.logistic (k0_pay1 (F := Ideal) v0 v2 v4 v7 v11 (ix2 p ⟨3072 + j.val, by omega⟩))
        * Ideal.tanh (k0_pay2 (F := Ideal) v0 v2 v4 v7 v11 v23 (ix2 p j)) := by
  unfold k0_pay3
  simp only [mulf_apply, logistic, tanh, Ideal.logistic_def, Ideal.tanh_def, slice2_axis1_eq]

end Cert.KernelIdeal.Body

end
-- ==== Proof.LstmSpec.lean ====
/-
  The LSTM cell's two results over the extended reals, as functions of the fifteen argument arrays, entry by entry.
  For batch row `r` and hidden unit `j` each gate's pre-activation is
      pre r j = (Σ_k x[r,k] · W_x[j,k]  +  Σ_k h[r,k] · W_h[j,k])  +  b[j] :
  the products with the TRANSPOSED weight matrices, read directly at `W[j,k]`, the three summands grouped as both
  programs group them. The input, forget and output gates are its logistic, the candidate its hyperbolic tangent, and
      c' r j = f · c[r,j] + i · g,        h' r j = o · tanh (c' r j).
  Nothing here needs a finite entry: no sum is regrouped and no factor is moved across a sum.
-/
import Idealize.ShloMosaic.PureOps.Ideal
import Idealize.ShloMosaic.Lib.ValueIdx

noncomputable section

namespace Cert.Lstm

open Idealize.ShloMosaic Idealize.ShloMosaic.ValueIdx
open scoped BigOperators

/-- The batch arrays (`x`, `h`, `c` and both results) are 4096 rows of 1024 entries. -/
abbrev Rows : Shape := ⟨2, ![4096, 1024]⟩
/-- A weight matrix: one row of 1024 weights per hidden unit. -/
abbrev Sq : Shape := ⟨2, ![1024, 1024]⟩
/-- A bias: one entry per hidden unit. -/
abbrev Lane : Shape := ⟨1, ![1024]⟩

/-- One gate's pre-activation at row `r`, unit `j`: `(x W_xᵀ + h W_hᵀ) + b`. -/
def pre (x h : FVec Ideal Rows .f32) (Wx Wh : FVec Ideal Sq .f32) (b : FVec Ideal Lane .f32) (r : Fin 4096) (j : Fin 1024) : EReal :=
  ((∑ k : Fin 1024, x (ix2 r k) * Wx (ix2 j k)) + ∑ k : Fin 1024, h (ix2 r k) * Wh (ix2 j k)) + b (ix1 j)

/-- The new cell state's entry: `σ(pre_f) · c + σ(pre_i) · tanh(pre_g)`. -/
def cellAt (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32)
    (r : Fin 4096) (j : Fin 1024) : EReal :=
  Ideal.logistic (pre x h Wxf Whf bf r j) * c (ix2 r j)
    + Ideal.logistic (pre x h Wxi Whi bi r j) * Ideal.tanh (pre x h Wxg Whg bg r j)

/-- The new hidden state's entry: `σ(pre_o) · tanh(c')`. -/
def hiddenAt (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32)
    (Wxo Who : FVec Ideal Sq .f32) (bo : FVec Ideal Lane .f32) (r : Fin 4096) (j : Fin 1024) : EReal :=
  Ideal.logistic (pre x h Wxo Who bo r j) * Ideal.tanh (cellAt x h c Wxi Whi bi Wxf Whf bf Wxg Whg bg r j)

/-- The new cell state as a whole array. -/
def cellArr (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32) :
    FVec Ideal Rows .f32 :=
  fun i => cellAt x h c Wxi Whi bi Wxf Whf bf Wxg Whg bg (i 0) (i 1)

/-- The new hidden state as a whole array. -/
def hiddenArr (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32)
    (Wxo Who : FVec Ideal Sq .f32) (bo : FVec Ideal Lane .f32) : FVec Ideal Rows .f32 :=
  fun i => hiddenAt x h c Wxi Whi bi Wxf Whf bf Wxg Whg bg Wxo Who bo (i 0) (i 1)

theorem cellArr_ix2 (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32)
    (r : Fin 4096) (j : Fin 1024) :
    cellArr x h c Wxi Whi bi Wxf Whf bf Wxg Whg bg (ix2 r j) = cellAt x h c Wxi Whi bi Wxf Whf bf Wxg Whg bg r j := rfl

theorem hiddenArr_ix2 (x h c : FVec Ideal Rows .f32) (Wxi Whi : FVec Ideal Sq .f32) (bi : FVec Ideal Lane .f32)
    (Wxf Whf : FVec Ideal Sq .f32) (bf : FVec Ideal Lane .f32) (Wxg Whg : FVec Ideal Sq .f32) (bg : FVec Ideal Lane .f32)
    (Wxo Who : FVec Ideal Sq .f32) (bo : FVec Ideal Lane .f32) (r : Fin 4096) (j : Fin 1024) :
    hiddenArr x h c Wxi Whi bi Wxf Whf bf Wxg Whg bg Wxo Who bo (ix2 r j)
      = hiddenAt x h c Wxi Whi bi Wxf Whf bf Wxg Whg bg Wxo Who bo r j := rfl

end Cert.Lstm

end
-- ==== Proof.KernelIdealPoint.lean ====
/-
  One grid point of the LSTM kernel against the specification.

  The body's payloads are functions of six blocks: 128 rows of `x`, `h` and `c`, the two fused weight matrices
  (1024 × 4096: the four gates' transposed weights side by side, gate `g` in columns `1024 g … 1024 g + 1023`) and the
  bias row. Suppose row `p` of the three row blocks is row `r` of the arrays, column `off_g + j` of a fused matrix at
  row `k` is `W_g[j,k]`, and entry `off_g + j` of the bias row is `b_g[j]`. Then the gate sums the body forms,
  `(Σ_k x[p,k] · Wx[k, off+j] + Σ_k h[p,k] · Wh[k, off+j]) + bias[off+j]`, are term by term the specification's
  `pre` at `(r, j)`, and the cell and hidden entries follow by applying the same logistic, tanh, products and sum.
-/
import proofs.«166687_j47588237639946_1_alg».proof.Proof.KernelBody
import proofs.«166687_j47588237639946_1_alg».proof.Proof.LstmSpec

noncomputable section

namespace Cert.KernelIdeal.Point

open Cert.KernelIdeal Cert.KernelIdeal.Gen Idealize.ShloMosaic Idealize.ShloMosaic.ValueIdx Cert.Lstm
open scoped BigOperators

variable (x h cc : Vec Ideal S128x1024 .f32) (wx wh : Vec Ideal S1024x4096 .bf16) (b : Vec Ideal S1x4096 .f32)
variable (X H C : FVec Ideal Rows .f32)
variable (Wxi Whi : FVec Ideal Sq .f32) (bi : FVec Ideal Lane .f32) (Wxf Whf : FVec Ideal Sq .f32) (bf : FVec Ideal Lane .f32)
variable (Wxg Whg : FVec Ideal Sq .f32) (bg : FVec Ideal Lane .f32) (Wxo Who : FVec Ideal Sq .f32) (bo : FVec Ideal Lane .f32)
variable (r : Fin 4096) (p : Fin 128)

/-- The new cell entry the body computes at `(p, j)` is the specification's at `(r, j)`. -/
theorem cell_of_blocks
    (hx : ∀ k : Fin 1024, x (ix2 p k) = X (ix2 r k)) (hh : ∀ k : Fin 1024, h (ix2 p k) = H (ix2 r k))
    (hc : ∀ j : Fin 1024, cc (ix2 p j) = C (ix2 r j))
    (hxi : ∀ k j : Fin 1024, wx (ix2 k ⟨j.val, by omega⟩) = Wxi (ix2 j k))
    (hhi : ∀ k j : Fin 1024, wh (ix2 k ⟨j.val, by omega⟩) = Whi (ix2 j k))
    (hbi : ∀ j : Fin 1024, b (ix2 (0 : Fin 1) ⟨j.val, by omega⟩) = bi (ix1 j))
    (hxf : ∀ k j : Fin 1024, wx (ix2 k ⟨1024 + j.val, by omega⟩) = Wxf (ix2 j k))
    (hhf : ∀ k j : Fin 1024, wh (ix2 k ⟨1024 + j.val, by omega⟩) = Whf (ix2 j k))
    (hbf : ∀ j : Fin 1024, b (ix2 (0 : Fin 1) ⟨1024 + j.val, by omega⟩) = bf (ix1 j))
    (hxg : ∀ k j : Fin 1024, wx (ix2 k ⟨2048 + j.val, by omega⟩) = Wxg (ix2 j k))
    (hhg : ∀ k j : Fin 1024, wh (ix2 k ⟨2048 + j.val, by omega⟩) = Whg (ix2 j k))
    (hbg : ∀ j : Fin 1024, b (ix2 (0 : Fin 1) ⟨2048 + j.val, by omega⟩) = bg (ix1 j))
    (j : Fin 1024) :
    k0_pay2 (F := Ideal) x h wx wh b cc (ix2 p j) = cellAt X H C Wxi Whi bi Wxf Whf bf Wxg Whg bg r j := by
  rw [Body.cell_at, Body.pre_at, Body.pre_at, Body.pre_at]
  unfold cellAt pre
  simp only [hx, hh, hc, hxi, hhi, hbi, hxf, hhf, hbf, hxg, hhg, hbg]

/-- The new hidden entry the body computes at `(p, j)` is the specification's at `(r, j)`. -/
theorem hidden_of_blocks
    (hx : ∀ k : Fin 1024, x (ix2 p k) = X (ix2 r k)) (hh : ∀ k : Fin 1024, h (ix2 p k) = H (ix2 r k))
    (hc : ∀ j : Fin 1024, cc (ix2 p j) = C (ix2 r j))
    (hxi : ∀ k j : Fin 1024, wx (ix2 k ⟨j.val, by omega⟩) = Wxi (ix2 j k))
    (hhi : ∀ k j : Fin 1024, wh (ix2 k ⟨j.val, by omega⟩) = Whi (ix2 j k))
    (hbi : ∀ j : Fin 1024, b (ix2 (0 : Fin 1) ⟨j.val, by omega⟩) = bi (ix1 j))
    (hxf : ∀ k j : Fin 1024, wx (ix2 k ⟨1024 + j.val, by omega⟩) = Wxf (ix2 j k))
    (hhf : ∀ k j : Fin 1024, wh (ix2 k ⟨1024 + j.val, by omega⟩) = Whf (ix2 j k))
    (hbf : ∀ j : Fin 1024, b (ix2 (0 : Fin 1) ⟨1024 + j.val, by omega⟩) = bf (ix1 j))
    (hxg : ∀ k j : Fin 1024, wx (ix2 k ⟨2048 + j.val, by omega⟩) = Wxg (ix2 j k))
    (hhg : ∀ k j : Fin 1024, wh (ix2 k ⟨2048 + j.val, by omega⟩) = Whg (ix2 j k))
    (hbg : ∀ j : Fin 1024, b (ix2 (0 : Fin 1) ⟨2048 + j.val, by omega⟩) = bg (ix1 j))
    (hxo : ∀ k j : Fin 1024, wx (ix2 k ⟨3072 + j.val, by omega⟩) = Wxo (ix2 j k))
    (hho : ∀ k j : Fin 1024, wh (ix2 k ⟨3072 + j.val, by omega⟩) = Who (ix2 j k))
    (hbo : ∀ j : Fin 1024, b (ix2 (0 : Fin 1) ⟨3072 + j.val, by omega⟩) = bo (ix1 j))
    (j : Fin 1024) :
    k0_pay3 (F := Ideal) x h wx wh b cc (ix2 p j)
      = hiddenAt X H C Wxi Whi bi Wxf Whf bf Wxg Whg bg Wxo Who bo r j := by
  rw [Body.hidden_at, Body.pre_at,
    cell_of_blocks x h cc wx wh b X H C Wxi Whi bi Wxf Whf bf Wxg Whg bg r p hx hh hc hxi hhi hbi hxf hhf hbf hxg hhg hbg j]
  unfold hiddenAt pre
  simp only [hx, hh, hxo, hho, hbo]

end Cert.KernelIdeal.Point

end
-- ==== Proof.KernelPrefix.lean ====
/-
  What the host operations before the kernel's region leave in the three arrays its weight and bias windows stage,
  read at an index. Each weight array is four transposed square matrices side by side (the truncation to the narrower
  format is the identity over the extended reals): column `off + j` of the whole lies in the piece whose span of
  1024 columns begins at `off`, at that piece's column `j`, and a transposed matrix at `(k, j)` is the matrix at
  `(j, k)`. The bias row is four vectors end to end, given a leading unit axis: its entry `off + j` is entry `j`
  of the vector whose span begins at `off`.
-/
import proofs.«166687_j47588237639946_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Prefix

open Cert.KernelIdeal Cert.KernelIdeal.Gen
open Idealize.ShloMosaic Idealize.ShloMosaic.TcCoe Idealize.SL.Sem Idealize.ShloMosaic.ValueIdx

/-! ## Four pieces laid along an axis, read at an index -/

section Pieces
variable {α : Type}

/-- Four square matrices side by side: column `j.val` of row `r` is piece 0's column `j` of row `r`. -/
theorem cat4_cols_0 (x0 x1 x2 x3 : S1024x1024.Idx → α)
    (h : Shape.Concatenates [S1024x1024, S1024x1024, S1024x1024, S1024x1024] S1024x4096 1) (r j : Fin 1024) :
    concatenate S1024x4096 1 [⟨S1024x1024, x0⟩, ⟨S1024x1024, x1⟩, ⟨S1024x1024, x2⟩, ⟨S1024x1024, x3⟩] h
        (ix2 r ⟨j.val, by omega⟩) = x0 (ix2 r j) :=
  concatenate_apply_piece (t := S1024x4096) 1 [⟨S1024x1024, x0⟩, ⟨S1024x1024, x1⟩, ⟨S1024x1024, x2⟩, ⟨S1024x1024, x3⟩] h
    (ix2 r ⟨j.val, by omega⟩) 0 (show 0 < 4 by omega) S1024x1024 x0 rfl rfl 0 rfl (ix2 r j)
    (fun b => match b with
      | ⟨0, _⟩ => fun _ => rfl
      | ⟨1, _⟩ => fun hne => absurd rfl hne) (Nat.zero_add _)
/-- Four square matrices side by side: column `1024 + j.val` of row `r` is piece 1's column `j` of row `r`. -/
theorem cat4_cols_1 (x0 x1 x2 x3 : S1024x1024.Idx → α)
    (h : Shape.Concatenates [S1024x1024, S1024x1024, S1024x1024, S1024x1024] S1024x4096 1) (r j : Fin 1024) :
    concatenate S1024x4096 1 [⟨S1024x1024, x0⟩, ⟨S1024x1024, x1⟩, ⟨S1024x1024, x2⟩, ⟨S1024x1024, x3⟩] h
        (ix2 r ⟨1024 + j.val, by omega⟩) = x1 (ix2 r j) :=
  concatenate_apply_piece (t := S1024x4096) 1 [⟨S1024x1024, x0⟩, ⟨S1024x1024, x1⟩, ⟨S1024x1024, x2⟩, ⟨S1024x1024, x3⟩] h
    (ix2 r ⟨1024 + j.val, by omega⟩) 1 (show 1 < 4 by omega) S1024x1024 x1 rfl rfl 1024 rfl (ix2 r j)
    (fun b => match b with
      | ⟨0, _⟩ => fun _ => rfl
      | ⟨1, _⟩ => fun hne => absurd rfl hne) rfl
/-- Four square matrices side by side: column `2048 + j.val` of row `r` is piece 2's column `j` of row `r`. -/
theorem cat4_cols_2 (x0 x1 x2 x3 : S1024x1024.Idx → α)
    (h : Shape.Concatenates [S1024x1024, S1024x1024, S1024x1024, S1024x1024] S1024x4096 1) (r j : Fin 1024) :
    concatenate S1024x4096 1 [⟨S1024x1024, x0⟩, ⟨S1024x1024, x1⟩, ⟨S1024x1024, x2⟩, ⟨S1024x1024, x3⟩] h
        (ix2 r ⟨2048 + j.val, by omega⟩) = x2 (ix2 r j) :=
  concatenate_apply_piece (t := S1024x4096) 1 [⟨S1024x1024, x0⟩, ⟨S1024x1024, x1⟩, ⟨S1024x1024, x2⟩, ⟨S1024x1024, x3⟩] h
    (ix2 r ⟨2048 + j.val, by omega⟩) 2 (show 2 < 4 by omega) S1024x1024 x2 rfl rfl 2048 rfl (ix2 r j)
    (fun b => match b with
      | ⟨0, _⟩ => fun _ => rfl
      | ⟨1, _⟩ => fun hne => absurd rfl hne) rfl
/-- Four square matrices side by side: column `3072 + j.val` of row `r` is piece 3's column `j` of row `r`. -/
theorem cat4_cols_3 (x0 x1 x2 x3 : S1024x1024.Idx → α)
    (h : Shape.Concatenates [S1024x1024, S1024x1024, S1024x1024, S1024x1024] S1024x4096 1) (r j : Fin 1024) :
    concatenate S1024x4096 1 [⟨S1024x1024, x0⟩, ⟨S1024x1024, x1⟩, ⟨S1024x1024, x2⟩, ⟨S1024x1024, x3⟩] h
        (ix2 r ⟨3072 + j.val, by omega⟩) = x3 (ix2 r j) :=
  concatenate_apply_piece (t := S1024x4096) 1 [⟨S1024x1024, x0⟩, ⟨S1024x1024, x1⟩, ⟨S1024x1024, x2⟩, ⟨S1024x1024, x3⟩] h
    (ix2 r ⟨3072 + j.val, by omega⟩) 3 (show 3 < 4 by omega) S1024x1024 x3 rfl rfl 3072 rfl (ix2 r j)
    (fun b => match b with
      | ⟨0, _⟩ => fun _ => rfl
      | ⟨1, _⟩ => fun hne => absurd rfl hne) rfl
/-- Four vectors end to end: entry `j.val` is piece 0's entry `j`. -/
theorem cat4_vec_0 (x0 x1 x2 x3 : S1024.Idx → α)
    (h : Shape.Concatenates [S1024, S1024, S1024, S1024] S4096 0) (j : Fin 1024) :
    concatenate S4096 0 [⟨S1024, x0⟩, ⟨S1024, x1⟩, ⟨S1024, x2⟩, ⟨S1024, x3⟩] h
        (ix1 ⟨j.val, by omega⟩) = x0 (ix1 j) :=
  concatenate_apply_piece (t := S4096) 0 [⟨S1024, x0⟩, ⟨S1024, x1⟩, ⟨S1024, x2⟩, ⟨S1024, x3⟩] h
    (ix1 ⟨j.val, by omega⟩) 0 (show 0 < 4 by omega) S1024 x0 rfl rfl 0 rfl (ix1 j)
    (fun b => match b with
      | ⟨0, _⟩ => fun hne => absurd rfl hne) (Nat.zero_add _)
/-- Four vectors end to end: entry `1024 + j.val` is piece 1's entry `j`. -/
theorem cat4_vec_1 (x0 x1 x2 x3 : S1024.Idx → α)
    (h : Shape.Concatenates [S1024, S1024, S1024, S1024] S4096 0) (j : Fin 1024) :
    concatenate S4096 0 [⟨S1024, x0⟩, ⟨S1024, x1⟩, ⟨S1024, x2⟩, ⟨S1024, x3⟩] h
        (ix1 ⟨1024 + j.val, by omega⟩) = x1 (ix1 j) :=
  concatenate_apply_piece (t := S4096) 0 [⟨S1024, x0⟩, ⟨S1024, x1⟩, ⟨S1024, x2⟩, ⟨S1024, x3⟩] h
    (ix1 ⟨1024 + j.val, by omega⟩) 1 (show 1 < 4 by omega) S1024 x1 rfl rfl 1024 rfl (ix1 j)
    (fun b => match b with
      | ⟨0, _⟩ => fun hne => absurd rfl hne) rfl
/-- Four vectors end to end: entry `2048 + j.val` is piece 2's entry `j`. -/
theorem cat4_vec_2 (x0 x1 x2 x3 : S1024.Idx → α)
    (h : Shape.Concatenates [S1024, S1024, S1024, S1024] S4096 0) (j : Fin 1024) :
    concatenate S4096 0 [⟨S1024, x0⟩, ⟨S1024, x1⟩, ⟨S1024, x2⟩, ⟨S1024, x3⟩] h
        (ix1 ⟨2048 + j.val, by omega⟩) = x2 (ix1 j) :=
  concatenate_apply_piece (t := S4096) 0 [⟨S1024, x0⟩, ⟨S1024, x1⟩, ⟨S1024, x2⟩, ⟨S1024, x3⟩] h
    (ix1 ⟨2048 + j.val, by omega⟩) 2 (show 2 < 4 by omega) S1024 x2 rfl rfl 2048 rfl (ix1 j)
    (fun b => match b with
      | ⟨0, _⟩ => fun hne => absurd rfl hne) rfl
/-- Four vectors end to end: entry `3072 + j.val` is piece 3's entry `j`. -/
theorem cat4_vec_3 (x0 x1 x2 x3 : S1024.Idx → α)
    (h : Shape.Concatenates [S1024, S1024, S1024, S1024] S4096 0) (j : Fin 1024) :
    concatenate S4096 0 [⟨S1024, x0⟩, ⟨S1024, x1⟩, ⟨S1024, x2⟩, ⟨S1024, x3⟩] h
        (ix1 ⟨3072 + j.val, by omega⟩) = x3 (ix1 j) :=
  concatenate_apply_piece (t := S4096) 0 [⟨S1024, x0⟩, ⟨S1024, x1⟩, ⟨S1024, x2⟩, ⟨S1024, x3⟩] h
    (ix1 ⟨3072 + j.val, by omega⟩) 3 (show 3 < 4 by omega) S1024 x3 rfl rfl 3072 rfl (ix1 j)
    (fun b => match b with
      | ⟨0, _⟩ => fun hne => absurd rfl hne) rfl

end Pieces

/-! ## The arrays at the region's entry -/

variable (m : (ℓ : Loc nD τ sig) → Buf (Elt Ideal) ℓ)

/-- Core `c`'s buffer `b` once the host operations before the region have run from the launch contents `m`. -/
abbrev entry (c : Dev nD) (b : Ref sig .tc) : Buf (Elt Ideal) ((c : Thread nD τ).loc b) :=
  StableHlo.after (Gen.hostOps0 (F := Ideal)) (fun b => m (c, b)) b

/-- The x-weights' array at the region's entry: the four transposed matrices side by side, narrowed. -/
theorem v5_eq (c : Dev nD) :
    @Eq (FVec Ideal S1024x4096 .bf16) (entry m c main_v5)
      (truncf (F := Ideal) .bf16 (concatenate S1024x4096 1
          [⟨S1024x1024, transpose S1024x1024 [1, 0] (m ((c : Thread nD τ).loc main_arg3)) Facts₀.transposes_S1024x1024_S1024x1024_1_0⟩,
           ⟨S1024x1024, transpose S1024x1024 [1, 0] (m ((c : Thread nD τ).loc main_arg6)) Facts₀.transposes_S1024x1024_S1024x1024_1_0⟩,
           ⟨S1024x1024, transpose S1024x1024 [1, 0] (m ((c : Thread nD τ).loc main_arg9)) Facts₀.transposes_S1024x1024_S1024x1024_1_0⟩,
           ⟨S1024x1024, transpose S1024x1024 [1, 0] (m ((c : Thread nD τ).loc main_arg12)) Facts₀.transposes_S1024x1024_S1024x1024_1_0⟩]
          Facts₀.concatenates_S1024x1024_S1024x1024_S1024x1024_S1024x1024_S1024x4096_d1) Facts₀.bitsLt_bf16_f32) := by
  dsimp only [entry, Gen.hostOps0]
  after_results
  rfl
/-- The h-weights' array at the region's entry: the four transposed matrices side by side, narrowed. -/
theorem v11_eq (c : Dev nD) :
    @Eq (FVec Ideal S1024x4096 .bf16) (entry m c main_v11)
      (truncf (F := Ideal) .bf16 (concatenate S1024x4096 1
          [⟨S1024x1024, transpose S1024x1024 [1, 0] (m ((c : Thread nD τ).loc main_arg4)) Facts₀.transposes_S1024x1024_S1024x1024_1_0⟩,
           ⟨S1024x1024, transpose S1024x1024 [1, 0] (m ((c : Thread nD τ).loc main_arg7)) Facts₀.transposes_S1024x1024_S1024x1024_1_0⟩,
           ⟨S1024x1024, transpose S1024x1024 [1, 0] (m ((c : Thread nD τ).loc main_arg10)) Facts₀.transposes_S1024x1024_S1024x1024_1_0⟩,
           ⟨S1024x1024, transpose S1024x1024 [1, 0] (m ((c : Thread nD τ).loc main_arg13)) Facts₀.transposes_S1024x1024_S1024x1024_1_0⟩]
          Facts₀.concatenates_S1024x1024_S1024x1024_S1024x1024_S1024x1024_S1024x4096_d1) Facts₀.bitsLt_bf16_f32) := by
  dsimp only [entry, Gen.hostOps0]
  after_results
  rfl
/-- The bias row at the region's entry: the four bias vectors end to end, given a leading unit axis. -/
theorem v13_eq (c : Dev nD) :
    @Eq (FVec Ideal S1x4096 .f32) (entry m c main_v13)
      (shapeCast S1x4096 (concatenate S4096 0
          [⟨S1024, m ((c : Thread nD τ).loc main_arg5)⟩, ⟨S1024, m ((c : Thread nD τ).loc main_arg8)⟩, ⟨S1024, m ((c : Thread nD τ).loc main_arg11)⟩, ⟨S1024, m ((c : Thread nD τ).loc main_arg14)⟩]
          Facts₀.concatenates_S1024_S1024_S1024_S1024_S4096_d0) Facts₀.shapeCasts_S4096_S1x4096) := by
  dsimp only [entry, Gen.hostOps0]
  after_results
  rfl

/-! ## The twelve reads -/

/-- The x-weights' array at row `k`, column `j.val`: the input gate's x-weight matrix at `(j, k)`. -/
theorem wx_i (c : Dev nD) (k j : Fin 1024) :
    entry m c main_v5 (ix2 k ⟨j.val, by omega⟩) = m ((c : Thread nD τ).loc main_arg3) (ix2 j k) := by
  refine (congrFun (v5_eq m c) _).trans ?_
  rw [truncf_apply, cat4_cols_0, transpose_ix2_apply]

/-- The x-weights' array at row `k`, column `1024 + j.val`: the forget gate's x-weight matrix at `(j, k)`. -/
theorem wx_f (c : Dev nD) (k j : Fin 1024) :
    entry m c main_v5 (ix2 k ⟨1024 + j.val, by omega⟩) = m ((c : Thread nD τ).loc main_arg6) (ix2 j k) := by
  refine (congrFun (v5_eq m c) _).trans ?_
  rw [truncf_apply, cat4_cols_1, transpose_ix2_apply]

/-- The x-weights' array at row `k`, column `2048 + j.val`: the candidate gate's x-weight matrix at `(j, k)`. -/
theorem wx_g (c : Dev nD) (k j : Fin 1024) :
    entry m c main_v5 (ix2 k ⟨2048 + j.val, by omega⟩) = m ((c : Thread nD τ).loc main_arg9) (ix2 j k) := by
  refine (congrFun (v5_eq m c) _).trans ?_
  rw [truncf_apply, cat4_cols_2, transpose_ix2_apply]

/-- The x-weights' array at row `k`, column `3072 + j.val`: the output gate's x-weight matrix at `(j, k)`. -/
theorem wx_o (c : Dev nD) (k j : Fin 1024) :
    entry m c main_v5 (ix2 k ⟨3072 + j.val, by omega⟩) = m ((c : Thread nD τ).loc main_arg12) (ix2 j k) := by
  refine (congrFun (v5_eq m c) _).trans ?_
  rw [truncf_apply, cat4_cols_3, transpose_ix2_apply]

/-- The h-weights' array at row `k`, column `j.val`: the input gate's h-weight matrix at `(j, k)`. -/
theorem wh_i (c : Dev nD) (k j : Fin 1024) :
    entry m c main_v11 (ix2 k ⟨j.val, by omega⟩) = m ((c : Thread nD τ).loc main_arg4) (ix2 j k) := by
  refine (congrFun (v11_eq m c) _).trans ?_
  rw [truncf_apply, cat4_cols_0, transpose_ix2_apply]

/-- The h-weights' array at row `k`, column `1024 + j.val`: the forget gate's h-weight matrix at `(j, k)`. -/
theorem wh_f (c : Dev nD) (k j : Fin 1024) :
    entry m c main_v11 (ix2 k ⟨1024 + j.val, by omega⟩) = m ((c : Thread nD τ).loc main_arg7) (ix2 j k) := by
  refine (congrFun (v11_eq m c) _).trans ?_
  rw [truncf_apply, cat4_cols_1, transpose_ix2_apply]

/-- The h-weights' array at row `k`, column `2048 + j.val`: the candidate gate's h-weight matrix at `(j, k)`. -/
theorem wh_g (c : Dev nD) (k j : Fin 1024) :
    entry m c main_v11 (ix2 k ⟨2048 + j.val, by omega⟩) = m ((c : Thread nD τ).loc main_arg10) (ix2 j k) := by
  refine (congrFun (v11_eq m c) _).trans ?_
  rw [truncf_apply, cat4_cols_2, transpose_ix2_apply]

/-- The h-weights' array at row `k`, column `3072 + j.val`: the output gate's h-weight matrix at `(j, k)`. -/
theorem wh_o (c : Dev nD) (k j : Fin 1024) :
    entry m c main_v11 (ix2 k ⟨3072 + j.val, by omega⟩) = m ((c : Thread nD τ).loc main_arg13) (ix2 j k) := by
  refine (congrFun (v11_eq m c) _).trans ?_
  rw [truncf_apply, cat4_cols_3, transpose_ix2_apply]

/-- The bias row at column `j.val`: the input gate's bias at `j`. -/
theorem b_i (c : Dev nD) (j : Fin 1024) :
    entry m c main_v13 (ix2 (0 : Fin 1) ⟨j.val, by omega⟩) = m ((c : Thread nD τ).loc main_arg5) (ix1 j) := by
  refine (congrFun (v13_eq m c) _).trans ?_
  rw [shapeCast_a_1a_apply, cat4_vec_0]

/-- The bias row at column `1024 + j.val`: the forget gate's bias at `j`. -/
theorem b_f (c : Dev nD) (j : Fin 1024) :
    entry m c main_v13 (ix2 (0 : Fin 1) ⟨1024 + j.val, by omega⟩) = m ((c : Thread nD τ).loc main_arg8) (ix1 j) := by
  refine (congrFun (v13_eq m c) _).trans ?_
  rw [shapeCast_a_1a_apply, cat4_vec_1]

/-- The bias row at column `2048 + j.val`: the candidate gate's bias at `j`. -/
theorem b_g (c : Dev nD) (j : Fin 1024) :
    entry m c main_v13 (ix2 (0 : Fin 1) ⟨2048 + j.val, by omega⟩) = m ((c : Thread nD τ).loc main_arg11) (ix1 j) := by
  refine (congrFun (v13_eq m c) _).trans ?_
  rw [shapeCast_a_1a_apply, cat4_vec_2]

/-- The bias row at column `3072 + j.val`: the output gate's bias at `j`. -/
theorem b_o (c : Dev nD) (j : Fin 1024) :
    entry m c main_v13 (ix2 (0 : Fin 1) ⟨3072 + j.val, by omega⟩) = m ((c : Thread nD τ).loc main_arg14) (ix1 j) := by
  refine (congrFun (v13_eq m c) _).trans ?_
  rw [shapeCast_a_1a_apply, cat4_vec_3]

end Cert.KernelIdeal.Prefix

end
-- ==== Proof.KernelIdealWhole.lean ====
/-
  From the kernel's blocks to its two result arrays.

  Point `t` of the grid reads rows `128 t … 128 t + 127` of `x`, `h` and `c` and the whole of the two fused weight
  matrices and of the bias row, and writes rows `128 t … 128 t + 127` of both results. Row `p` of what it writes is,
  entry by entry, the specification's hidden and cell entry at row `128 t + p`: the fused matrices hold `W_g[j,k]` at
  row `k`, column `1024 g + j` (transposed, then laid side by side), the bias row `b_g[j]` at `1024 g + j`. The 32
  blocks tile the 4096 rows — row `r` lies in the block of point `r / 128` —, so after the run each result array IS the
  specification's array.
-/
import proofs.«166687_j47588237639946_1_alg».proof.Proof.KernelIdealFrame
import proofs.«166687_j47588237639946_1_alg».proof.Proof.KernelIdealPoint
import proofs.«166687_j47588237639946_1_alg».proof.Proof.KernelPrefix
import Idealize.ShloMosaic.Lib.Pipeline.Value

set_option maxRecDepth 16384

noncomputable section

namespace Cert.KernelIdeal.Whole

open Cert.KernelIdeal Cert.KernelIdeal.Gen Cert.KernelIdeal.Fr Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 points: the five row windows sit at block row `t`, the weights and the bias at
    block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := Nat.lt_of_lt_of_eq t.isLt N_0

/-! ## The six input blocks at a point, over their literal types -/

abbrev xblk (c : Dev nD) (t : Fin cfg0.N) : Vec Ideal S128x1024 .f32 := iblk m c 0 t
abbrev hblk (c : Dev nD) (t : Fin cfg0.N) : Vec Ideal S128x1024 .f32 := iblk m c 1 t
abbrev cblk (c : Dev nD) (t : Fin cfg0.N) : Vec Ideal S128x1024 .f32 := iblk m c 2 t
abbrev wxblk (c : Dev nD) (t : Fin cfg0.N) : Vec Ideal S1024x4096 .bf16 := iblk m c 3 t
abbrev whblk (c : Dev nD) (t : Fin cfg0.N) : Vec Ideal S1024x4096 .bf16 := iblk m c 4 t
abbrev bblk (c : Dev nD) (t : Fin cfg0.N) : Vec Ideal S1x4096 .f32 := iblk m c 5 t

/-- Row `p` of point `t`'s block of argument 0 is row `128 t + p` of the array. -/
theorem xblk_at (c : Dev nD) (t : Fin cfg0.N) (p : Fin 128) (k : Fin 1024) (hr : t.val * 128 + p.val < 4096) :
    xblk m c t (ix2 p k) = m ((c : Thread nD τ).loc main_arg0) (ix2 (⟨t.val * 128 + p.val, hr⟩ : Fin 4096) k) := by
  show V m c main_arg0 (((cfg0.win 0).blk t).view.emb (ix2 p k)) = _
  have e : ((cfg0.win 0).blk t).view.emb (ix2 p k) = ix2 (⟨t.val * 128 + p.val, hr⟩ : Fin 4096) k := by
    obtain ⟨a00, a01, a10, a11, a20, a21, -⟩ := idx_facts t
    funext a; apply Fin.ext
    match a with
    | ⟨0, _⟩ => show win0_0.index t (0 : Fin 2) * 128 + 1 * p.val = t.val * 128 + p.val; omega
    | ⟨1, _⟩ => show win0_0.index t (1 : Fin 2) * 1024 + 1 * k.val = k.val; omega
  rw [e, V_main_arg0]

/-- Row `p` of point `t`'s block of argument 1 is row `128 t + p` of the array. -/
theorem hblk_at (c : Dev nD) (t : Fin cfg0.N) (p : Fin 128) (k : Fin 1024) (hr : t.val * 128 + p.val < 4096) :
    hblk m c t (ix2 p k) = m ((c : Thread nD τ).loc main_arg1) (ix2 (⟨t.val * 128 + p.val, hr⟩ : Fin 4096) k) := by
  show V m c main_arg1 (((cfg0.win 1).blk t).view.emb (ix2 p k)) = _
  have e : ((cfg0.win 1).blk t).view.emb (ix2 p k) = ix2 (⟨t.val * 128 + p.val, hr⟩ : Fin 4096) k := by
    obtain ⟨a00, a01, a10, a11, a20, a21, -⟩ := idx_facts t
    funext a; apply Fin.ext
    match a with
    | ⟨0, _⟩ => show win0_1.index t (0 : Fin 2) * 128 + 1 * p.val = t.val * 128 + p.val; omega
    | ⟨1, _⟩ => show win0_1.index t (1 : Fin 2) * 1024 + 1 * k.val = k.val; omega
  rw [e, V_main_arg1]

/-- Row `p` of point `t`'s block of argument 2 is row `128 t + p` of the array. -/
theorem cblk_at (c : Dev nD) (t : Fin cfg0.N) (p : Fin 128) (k : Fin 1024) (hr : t.val * 128 + p.val < 4096) :
    cblk m c t (ix2 p k) = m ((c : Thread nD τ).loc main_arg2) (ix2 (⟨t.val * 128 + p.val, hr⟩ : Fin 4096) k) := by
  show V m c main_arg2 (((cfg0.win 2).blk t).view.emb (ix2 p k)) = _
  have e : ((cfg0.win 2).blk t).view.emb (ix2 p k) = ix2 (⟨t.val * 128 + p.val, hr⟩ : Fin 4096) k := by
    obtain ⟨a00, a01, a10, a11, a20, a21, -⟩ := idx_facts t
    funext a; apply Fin.ext
    match a with
    | ⟨0, _⟩ => show win0_2.index t (0 : Fin 2) * 128 + 1 * p.val = t.val * 128 + p.val; omega
    | ⟨1, _⟩ => show win0_2.index t (1 : Fin 2) * 1024 + 1 * k.val = k.val; omega
  rw [e, V_main_arg2]

/-- The x-weights' block is the whole fused matrix, as the host operations left it. -/
theorem wxblk_at (c : Dev nD) (t : Fin cfg0.N) (k : Fin 1024) (q : Fin 4096) :
    wxblk m c t (ix2 k q) = V m c main_v5 (ix2 k q) := by
  show V m c main_v5 (((cfg0.win 3).blk t).view.emb (ix2 k q)) = _
  have e : ((cfg0.win 3).blk t).view.emb (ix2 k q) = ix2 k q := by
    obtain ⟨-, -, -, -, -, -, a30, a31, -⟩ := idx_facts t
    funext a; apply Fin.ext
    match a with
    | ⟨0, _⟩ => show win0_3.index t (0 : Fin 2) * 1024 + 1 * k.val = k.val; omega
    | ⟨1, _⟩ => show win0_3.index t (1 : Fin 2) * 4096 + 1 * q.val = q.val; omega
  rw [e]

/-- The h-weights' block is the whole fused matrix. -/
theorem whblk_at (c : Dev nD) (t : Fin cfg0.N) (k : Fin 1024) (q : Fin 4096) :
    whblk m c t (ix2 k q) = V m c main_v11 (ix2 k q) := by
  show V m c main_v11 (((cfg0.win 4).blk t).view.emb (ix2 k q)) = _
  have e : ((cfg0.win 4).blk t).view.emb (ix2 k q) = ix2 k q := by
    obtain ⟨-, -, -, -, -, -, -, -, a40, a41, -⟩ := idx_facts t
    funext a; apply Fin.ext
    match a with
    | ⟨0, _⟩ => show win0_4.index t (0 : Fin 2) * 1024 + 1 * k.val = k.val; omega
    | ⟨1, _⟩ => show win0_4.index t (1 : Fin 2) * 4096 + 1 * q.val = q.val; omega
  rw [e]

/-- The bias block is the whole bias row. -/
theorem bblk_at (c : Dev nD) (t : Fin cfg0.N) (q : Fin 4096) :
    bblk m c t (ix2 (0 : Fin 1) q) = V m c main_v13 (ix2 (0 : Fin 1) q) := by
  show V m c main_v13 (((cfg0.win 5).blk t).view.emb (ix2 (0 : Fin 1) q)) = _
  have e : ((cfg0.win 5).blk t).view.emb (ix2 (0 : Fin 1) q) = ix2 (0 : Fin 1) q := by
    obtain ⟨-, -, -, -, -, -, -, -, -, -, a50, a51, -⟩ := idx_facts t
    funext a; apply Fin.ext
    match a with
    | ⟨0, _⟩ => show win0_5.index t (0 : Fin 2) * 1 + 1 * (0 : Fin 1).val = (0 : Fin 1).val; omega
    | ⟨1, _⟩ => show win0_5.index t (1 : Fin 2) * 4096 + 1 * q.val = q.val; omega
  rw [e]

/-! ## What a point writes, entry by entry -/

/-- Where entry `y` of point `t`'s output block lands in a result array. -/
theorem emb_out6 (t : Fin cfg0.N) (p : Fin 128) (j : Fin 1024) (hr : t.val * 128 + p.val < 4096) :
    ((cfg0.win 6).blk t).view.emb (ix2 p j) = ix2 (⟨t.val * 128 + p.val, hr⟩ : Fin 4096) j := by
  obtain ⟨-, -, -, -, -, -, -, -, -, -, -, -, a60, a61, -⟩ := idx_facts t
  funext a; apply Fin.ext
  match a with
  | ⟨0, _⟩ => show win0_6.index t (0 : Fin 2) * 128 + 1 * p.val = t.val * 128 + p.val; omega
  | ⟨1, _⟩ => show win0_6.index t (1 : Fin 2) * 1024 + 1 * j.val = j.val; omega

theorem emb_out7 (t : Fin cfg0.N) (p : Fin 128) (j : Fin 1024) (hr : t.val * 128 + p.val < 4096) :
    ((cfg0.win 7).blk t).view.emb (ix2 p j) = ix2 (⟨t.val * 128 + p.val, hr⟩ : Fin 4096) j := by
  obtain ⟨-, -, -, -, -, -, -, -, -, -, -, -, -, -, a70, a71⟩ := idx_facts t
  funext a; apply Fin.ext
  match a with
  | ⟨0, _⟩ => show win0_7.index t (0 : Fin 2) * 128 + 1 * p.val = t.val * 128 + p.val; omega
  | ⟨1, _⟩ => show win0_7.index t (1 : Fin 2) * 1024 + 1 * j.val = j.val; omega

/-- The hidden-state payload of point `t` at `y` is the specification's hidden array where `y` lands. -/
theorem hidden_point (c : Dev nD) (t : Fin cfg0.N) (y : S128x1024.Idx) :
    k0_pay3 (F := Ideal) (xblk m c t) (hblk m c t) (wxblk m c t) (whblk m c t) (bblk m c t) (cblk m c t) y
      = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 6).blk t).view.emb y) := by
  obtain ⟨p, j, rfl⟩ : ∃ (p : Fin 128) (j : Fin 1024), y = ix2 p j := ⟨y 0, y 1, eq_ix2 y⟩
  have ht := point_lt t
  have hr : t.val * 128 + p.val < 4096 := by have := p.isLt; omega
  rw [emb_out6 t p j hr, hiddenArr_ix2]
  exact Point.hidden_of_blocks (xblk m c t) (hblk m c t) (cblk m c t) (wxblk m c t) (whblk m c t) (bblk m c t)
    _ _ _ _ _ _ _ _ _ _ _ _ _ _ _ ⟨t.val * 128 + p.val, hr⟩ p
    (fun k => xblk_at m c t p k hr) (fun k => hblk_at m c t p k hr) (fun j => cblk_at m c t p j hr)
    (fun k j => (wxblk_at m c t k _).trans (Prefix.wx_i m c k j))
    (fun k j => (whblk_at m c t k _).trans (Prefix.wh_i m c k j))
    (fun j => (bblk_at m c t _).trans (Prefix.b_i m c j))
    (fun k j => (wxblk_at m c t k _).trans (Prefix.wx_f m c k j))
    (fun k j => (whblk_at m c t k _).trans (Prefix.wh_f m c k j))
    (fun j => (bblk_at m c t _).trans (Prefix.b_f m c j))
    (fun k j => (wxblk_at m c t k _).trans (Prefix.wx_g m c k j))
    (fun k j => (whblk_at m c t k _).trans (Prefix.wh_g m c k j))
    (fun j => (bblk_at m c t _).trans (Prefix.b_g m c j))
    (fun k j => (wxblk_at m c t k _).trans (Prefix.wx_o m c k j))
    (fun k j => (whblk_at m c t k _).trans (Prefix.wh_o m c k j))
    (fun j => (bblk_at m c t _).trans (Prefix.b_o m c j))
    j

/-- The cell-state payload of point `t` at `y` is the specification's cell array where `y` lands. -/
theorem cell_point (c : Dev nD) (t : Fin cfg0.N) (y : S128x1024.Idx) :
    k0_pay2 (F := Ideal) (xblk m c t) (hblk m c t) (wxblk m c t) (whblk m c t) (bblk m c t) (cblk m c t) y
      = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 7).blk t).view.emb y) := by
  obtain ⟨p, j, rfl⟩ : ∃ (p : Fin 128) (j : Fin 1024), y = ix2 p j := ⟨y 0, y 1, eq_ix2 y⟩
  have ht := point_lt t
  have hr : t.val * 128 + p.val < 4096 := by have := p.isLt; omega
  rw [emb_out7 t p j hr, cellArr_ix2]
  exact Point.cell_of_blocks (xblk m c t) (hblk m c t) (cblk m c t) (wxblk m c t) (whblk m c t) (bblk m c t)
    _ _ _ _ _ _ _ _ _ _ _ _ ⟨t.val * 128 + p.val, hr⟩ p
    (fun k => xblk_at m c t p k hr) (fun k => hblk_at m c t p k hr) (fun j => cblk_at m c t p j hr)
    (fun k j => (wxblk_at m c t k _).trans (Prefix.wx_i m c k j))
    (fun k j => (whblk_at m c t k _).trans (Prefix.wh_i m c k j))
    (fun j => (bblk_at m c t _).trans (Prefix.b_i m c j))
    (fun k j => (wxblk_at m c t k _).trans (Prefix.wx_f m c k j))
    (fun k j => (whblk_at m c t k _).trans (Prefix.wh_f m c k j))
    (fun j => (bblk_at m c t _).trans (Prefix.b_f m c j))
    (fun k j => (wxblk_at m c t k _).trans (Prefix.wx_g m c k j))
    (fun k j => (whblk_at m c t k _).trans (Prefix.wh_g m c k j))
    (fun j => (bblk_at m c t _).trans (Prefix.b_g m c j))
    j

/-- What point `t` writes back to the hidden-state array is block `t` of the specification's array. -/
theorem flushedH_eq (c : Dev nD) (t : Fin cfg0.N) :
    (dats m 0 c).flushed 6 t = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 6).cut (grid0.coords t) ((dats m 0 c).after 6 t) = _
  rw [after6]
  unfold outH
  rw [View.canon_unit_zero hz]
  simp only [View.ld_unit_zero (S := S128x1024) hz, View.ld_unit_zero (S := S1024x4096) hz, View.ld_unit_zero (S := S1x4096) hz]
  funext y
  exact hidden_point m c t y

/-- What point `t` writes back to the cell-state array is block `t` of the specification's array. -/
theorem flushedC_eq (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show (cfg0.win 7).cut (grid0.coords t) ((dats m 0 c).after 7 t) = _
  rw [after7]
  unfold outC
  rw [View.canon_unit_zero hz]
  simp only [View.ld_unit_zero (S := S128x1024) hz, View.ld_unit_zero (S := S1024x4096) hz, View.ld_unit_zero (S := S1x4096) hz]
  funext y
  exact cell_point m c t y

/-! ## The blocks tile the arrays -/

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v14_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v14_1).slice (win0_7.rect t)).set ↔ _
  rw [View.set_slice_whole, Rect.mem_set_unit]
  exact Iff.rfl

/-- The point whose block holds row `r`: `r / 128`. -/
def pointOf (i : S4096x1024.Idx) : Fin cfg0.N :=
  ⟨(i 0).val / 128, by have h : (i 0).val < 4096 := (i 0).isLt; rw [show cfg0.N = 32 from N_0]; omega⟩

theorem pointOf_val (i : S4096x1024.Idx) : (pointOf i).val = (i 0).val / 128 := rfl

/-- Every index of the hidden-state array lies in the block of the point `row / 128`, which writes it back. -/
theorem coverH (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  refine ⟨pointOf i, flush0_6 _, ?_⟩
  rw [mem_blk6]
  obtain ⟨-, -, -, -, -, -, -, -, -, -, -, -, a60, a61, -⟩ := idx_facts (pointOf i)
  rw [pointOf_val] at a60
  intro a
  match a with
  | ⟨0, _⟩ => show win0_6.index (pointOf i) (0 : Fin 2) * 128 ≤ (i 0).val ∧ (i 0).val < win0_6.index (pointOf i) (0 : Fin 2) * 128 + 128; omega
  | ⟨1, _⟩ => show win0_6.index (pointOf i) (1 : Fin 2) * 1024 ≤ (i 1).val ∧ (i 1).val < win0_6.index (pointOf i) (1 : Fin 2) * 1024 + 1024; omega

theorem coverC (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  refine ⟨pointOf i, flush0_7 _, ?_⟩
  rw [mem_blk7]
  obtain ⟨-, -, -, -, -, -, -, -, -, -, -, -, -, -, a70, a71⟩ := idx_facts (pointOf i)
  rw [pointOf_val] at a70
  intro a
  match a with
  | ⟨0, _⟩ => show win0_7.index (pointOf i) (0 : Fin 2) * 128 ≤ (i 0).val ∧ (i 0).val < win0_7.index (pointOf i) (0 : Fin 2) * 128 + 128; omega
  | ⟨1, _⟩ => show win0_7.index (pointOf i) (1 : Fin 2) * 1024 ≤ (i 1).val ∧ (i 1).val < win0_7.index (pointOf i) (1 : Fin 2) * 1024 + 1024; omega

/-! ## The result arrays after the run -/

theorem finalH (c : Dev nD) : (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 6 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (fun t _ => flushedH_eq m c t) coverH

theorem finalC (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 7 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushedC_eq m c t) coverC

/-- Every weakly fair execution of the idealized kernel's program ends with the hidden and cell arrays at the
    specification's and the fifteen argument arrays as launched. -/
theorem run : θ_run defs (onTc (τ := τ) (main (F := Ideal))) ⟨m, fun _ => 0, ρ⟩ (fun r => ∀ c : Dev nD,
      r.2.mem ((c.tc : Thread nD τ).loc main_v14_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_v14_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (finalH m c), ((h c).1 7).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Whole

end
-- ==== Proof.RefValue.lean ====
/-
  The reference computes the specification. Each of the four gates of the reference is the same chain: two products
  with a transposed weight matrix, their sum, the bias broadcast along the rows, added last. Read at row `r`, unit `j`,
  a product with the transpose of `W` is `Σ_k x[r,k] · W[j,k]` (the transpose swaps the two coordinates of the weight's
  index), and the twice-broadcast bias is `b[j]`; so the gate's pre-activation is `Cert.Lstm.pre`. The logistic the
  reference spells as `1 / (1 + exp (-z))` with the constant one written as a bit pattern; that pattern is the
  extended real one, and the expression is the ideal logistic by its definition. The two results are then the
  entrywise products and the sum the specification writes.
-/
import proofs.«166687_j47588237639946_1_alg».proof.Proof.LstmSpec
import proofs.«166687_j47588237639946_1_alg».proof.Proof.Gen.ReferenceIdeal.Read
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Lstm
open scoped BigOperators

/-- A product with the transposed weight matrix, at row `r`, unit `j`: the weight is read at `W[j,k]`. -/
theorem dotT_apply (x : FVec Ideal Rows .f32) (W : FVec Ideal Sq .f32) (r : Fin 4096) (j : Fin 1024) :
    val_main_v1 (F := Ideal) x W (ix2 r j) = ∑ k : Fin 1024, x (ix2 r k) * W (ix2 j k) := by
  rw [val_main_v1_apply]
  refine Finset.sum_congr rfl fun k _ => ?_
  rw [val_main_v0_apply]
  have hl : lidx_main_v1 (ix2 r j) k = ix2 r k :=
    funext fun a => match a with | ⟨0, _⟩ => rfl | ⟨1, _⟩ => rfl
  have hr : idx_main_v0 (ridx_main_v1 (ix2 r j) k) = ix2 j k :=
    funext fun a => match a with | ⟨0, _⟩ => rfl | ⟨1, _⟩ => rfl
  rw [hl, hr]

/-- The bias broadcast to a row and then along the rows, at row `r`, unit `j`, is `b[j]`. -/
theorem bias_apply (b : FVec Ideal Lane .f32) (r : Fin 4096) (j : Fin 1024) :
    val_main_v6 (F := Ideal) b (ix2 r j) = b (ix1 j) := by
  rw [val_main_v6_apply, val_main_v5_apply]
  have hb : idx_main_v5 (idx_main_v6 (ix2 r j)) = ix1 j :=
    funext fun a => match a with | ⟨0, _⟩ => rfl
  rw [hb]

/-- The input gate's pre-activation stage is the specification's `pre`. -/
theorem pre_apply (x h : FVec Ideal Rows .f32) (Wx Wh : FVec Ideal Sq .f32) (b : FVec Ideal Lane .f32)
    (r : Fin 4096) (j : Fin 1024) :
    val_main_v7 (F := Ideal) x h Wx Wh b (ix2 r j) = pre x h Wx Wh b r j := by
  rw [val_main_v7_apply, val_main_v4_apply, bias_apply, dotT_apply]
  rw [show val_main_v3 (F := Ideal) h Wh (ix2 r j) = val_main_v1 (F := Ideal) h Wh (ix2 r j) from rfl, dotT_apply]
  rfl

/-- The forget, candidate and output gates run the same chain on their own weights and bias. -/
theorem pre_f_apply (x h : FVec Ideal Rows .f32) (Wx Wh : FVec Ideal Sq .f32) (b : FVec Ideal Lane .f32)
    (r : Fin 4096) (j : Fin 1024) :
    val_main_v21 (F := Ideal) x h Wx Wh b (ix2 r j) = pre x h Wx Wh b r j :=
  pre_apply x h Wx Wh b r j

theorem pre_g_apply (x h : FVec Ideal Rows .f32) (Wx Wh : FVec Ideal Sq .f32) (b : FVec Ideal Lane .f32)
    (r : Fin 4096) (j : Fin 1024) :
    val_main_v35 (F := Ideal) x h Wx Wh b (ix2 r j) = pre x h Wx Wh b r j :=
  pre_apply x h Wx Wh b r j

theorem pre_o_apply (x h : FVec Ideal Rows .f32) (Wx Wh : FVec Ideal Sq .f32) (b : FVec Ideal Lane .f32)
    (r : Fin 4096) (j : Fin 1024) :
    val_main_v44 (F := Ideal) x h Wx Wh b (ix2 r j) = pre x h Wx Wh b r j :=
  pre_apply x h Wx Wh b r j

/-- `1 / (1 + exp (-z))` with the constant one given as its bit pattern is the ideal logistic of `z`. -/
theorem logistic_spelt (z : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf z)))
      = Ideal.logistic z := by
  rw [Ideal.ofBits_def, Ideal.ofBits_one_f32]
  rfl

/-- The input gate's value. -/
theorem gate_i_apply (x h : FVec Ideal Rows .f32) (Wx Wh : FVec Ideal Sq .f32) (b : FVec Ideal Lane .f32)
    (r : Fin 4096) (j : Fin 1024) :
    val_main_v13 (F := Ideal) x h Wx Wh b (ix2 r j) = Ideal.logistic (pre x h Wx Wh b r j) := by
  rw [val_main_v13_apply, val_main_v12_apply, val_main_cst_0_apply, val_main_v11_apply, val_main_v10_apply,
    val_main_cst_apply, val_main_v9_apply, val_main_v8_apply, pre_apply, logistic_spelt]

/-- The forget gate's value. -/
theorem gate_f_apply (x h : FVec Ideal Rows .f32) (Wx Wh : FVec Ideal Sq .f32) (b : FVec Ideal Lane .f32)
    (r : Fin 4096) (j : Fin 1024) :
    val_main_v27 (F := Ideal) x h Wx Wh b (ix2 r j) = Ideal.logistic (pre x h Wx Wh b r j) := by
  rw [val_main_v27_apply, val_main_v26_apply, val_main_cst_2_apply, val_main_v25_apply, val_main_v24_apply,
    val_main_cst_1_apply, val_main_v23_apply, val_main_v22_apply, pre_f_apply, logistic_spelt]

/-- The output gate's value. -/
theorem gate_o_apply (x h : FVec Ideal Rows .f32) (Wx Wh : FVec Ideal Sq .f32) (b : FVec Ideal Lane .f32)
    (r : Fin 4096) (j : Fin 1024) :
    val_main_v50 (F := Ideal) x h Wx Wh b (ix2 r j) = Ideal.logistic (pre x h Wx Wh b r j) := by
  rw [val_main_v50_apply, val_main_v49_apply, val_main_cst_4_apply, val_main_v48_apply, val_main_v47_apply,
    val_main_cst_3_apply, val_main_v46_apply, val_main_v45_apply, pre_o_apply, logistic_spelt]

/-- The candidate's value. -/
theorem gate_g_apply (x h : FVec Ideal Rows .f32) (Wx Wh : FVec Ideal Sq .f32) (b : FVec Ideal Lane .f32)
    (r : Fin 4096) (j : Fin 1024) :
    val_main_v36 (F := Ideal) x h Wx Wh b (ix2 r j) = Ideal.tanh (pre x h Wx Wh b r j) := by
  rw [val_main_v36_apply, pre_g_apply, Ideal.hostUnary_tanh_def]

/-- The new cell state at row `r`, unit `j`. -/
theorem cell_apply (x0 x1 x2 : FVec Ideal Rows .f32) (x3 x4 : FVec Ideal Sq .f32) (x5 : FVec Ideal Lane .f32)
    (x6 x7 : FVec Ideal Sq .f32) (x8 : FVec Ideal Lane .f32) (x9 x10 : FVec Ideal Sq .f32) (x11 : FVec Ideal Lane .f32)
    (r : Fin 4096) (j : Fin 1024) :
    val_main_v53 (F := Ideal) x0 x1 x2 x3 x4 x5 x6 x7 x8 x9 x10 x11 (ix2 r j)
      = cellAt x0 x1 x2 x3 x4 x5 x6 x7 x8 x9 x10 x11 r j := by
  rw [val_main_v53_apply, val_main_v51_apply, val_main_v52_apply, gate_f_apply, gate_i_apply, gate_g_apply]
  rfl

theorem ref_cell (x0 x1 x2 : FVec Ideal Cert.Lstm.Rows .f32) (x3 x4 : FVec Ideal Cert.Lstm.Sq .f32) (x5 : FVec Ideal Cert.Lstm.Lane .f32) (x6 x7 : FVec Ideal Cert.Lstm.Sq .f32) (x8 : FVec Ideal Cert.Lstm.Lane .f32) (x9 x10 : FVec Ideal Cert.Lstm.Sq .f32) (x11 : FVec Ideal Cert.Lstm.Lane .f32) :
    Cert.ReferenceIdeal.Read.val_main_v53 (F := Ideal) x0 x1 x2 x3 x4 x5 x6 x7 x8 x9 x10 x11 = Cert.Lstm.cellArr x0 x1 x2 x3 x4 x5 x6 x7 x8 x9 x10 x11 := by
  funext i
  obtain ⟨r, j, rfl⟩ : ∃ (r : Fin 4096) (j : Fin 1024), i = ix2 r j := ⟨i 0, i 1, eq_ix2 i⟩
  rw [cell_apply, cellArr_ix2]

theorem ref_hidden (x0 x1 x2 : FVec Ideal Cert.Lstm.Rows .f32) (x3 x4 : FVec Ideal Cert.Lstm.Sq .f32) (x5 : FVec Ideal Cert.Lstm.Lane .f32) (x6 x7 : FVec Ideal Cert.Lstm.Sq .f32) (x8 : FVec Ideal Cert.Lstm.Lane .f32) (x9 x10 : FVec Ideal Cert.Lstm.Sq .f32) (x11 : FVec Ideal Cert.Lstm.Lane .f32) (x12 x13 : FVec Ideal Cert.Lstm.Sq .f32) (x14 : FVec Ideal Cert.Lstm.Lane .f32) :
    Cert.ReferenceIdeal.Read.val_main_v55 (F := Ideal) x0 x1 x2 x3 x4 x5 x6 x7 x8 x9 x10 x11 x12 x13 x14 = Cert.Lstm.hiddenArr x0 x1 x2 x3 x4 x5 x6 x7 x8 x9 x10 x11 x12 x13 x14 := by
  funext i
  obtain ⟨r, j, rfl⟩ : ∃ (r : Fin 4096) (j : Fin 1024), i = ix2 r j := ⟨i 0, i 1, eq_ix2 i⟩
  rw [val_main_v55_apply, val_main_v54_apply, gate_o_apply, cell_apply, hiddenArr_ix2,
    Ideal.hostUnary_tanh_def]
  rfl

end Cert.ReferenceIdeal.RefValue

end
-- ==== Proof.lean ====
/-
  The LSTM cell kernel against its jnp reference, over the extended reals.

  Both programs compute, for batch row `r` and hidden unit `j`, the four gate pre-activations
  `(Σ_k x[r,k] W_x[j,k] + Σ_k h[r,k] W_h[j,k]) + b[j]`, the logistic of three of them and the hyperbolic tangent of the
  fourth, then `c' = f · c + i · g` and `h' = o · tanh c'` (Proof/LstmSpec.lean). The kernel fuses the four gates'
  transposed weight matrices side by side on the host, rounds them to bf16 (the identity on extended reals), and forms
  each gate's two matrix products as columns of two wide products over 128-row blocks; the reference forms eight
  separate products and spells the logistic out as `1 / (1 + e^{-z})`, which is the same function of every extended
  real. The three summands of a pre-activation are grouped alike on both sides and each product is one sum over the same
  1024 terms, so no algebraic law is needed that could fail at an infinity, and the precondition is never opened.

  The frames: the kernel's program (at the word-level instance and at the ideal one, one text) runs its host operations
  and its 32 grid points to the end and writes none of its fifteen arguments (Proof/KernelFrame.lean,
  Proof/KernelIdealFrame.lean); the reference is a straight line of host operations. The idealization rewrote nothing,
  so there is nothing for it to preserve.
-/
import proofs.«166687_j47588237639946_1_alg».proof.Defs
import proofs.«166687_j47588237639946_1_alg».proof.Proof.Gen.Kernel
import proofs.«166687_j47588237639946_1_alg».proof.Proof.Gen.Kernel.Skeleton
import proofs.«166687_j47588237639946_1_alg».proof.Proof.Gen.Kernel.Launch
import proofs.«166687_j47588237639946_1_alg».proof.Proof.Gen.Kernel.Points
import proofs.«166687_j47588237639946_1_alg».proof.Proof.Gen.KernelIdeal
import proofs.«166687_j47588237639946_1_alg».proof.Proof.Gen.KernelIdeal.Skeleton
import proofs.«166687_j47588237639946_1_alg».proof.Proof.Gen.KernelIdeal.Launch
import proofs.«166687_j47588237639946_1_alg».proof.Proof.Gen.KernelIdeal.Points
import proofs.«166687_j47588237639946_1_alg».proof.Proof.Gen.ReferenceIdeal
import proofs.«166687_j47588237639946_1_alg».proof.Proof.Gen.Pre_finite_inputs
import proofs.«166687_j47588237639946_1_alg».proof.Proof.Gen.ReferenceIdeal.Run
import proofs.«166687_j47588237639946_1_alg».proof.Proof.Gen.ReferenceIdeal.Read
import proofs.«166687_j47588237639946_1_alg».proof.Proof.KernelFrame
import proofs.«166687_j47588237639946_1_alg».proof.Proof.KernelIdealFrame
import proofs.«166687_j47588237639946_1_alg».proof.Proof.KernelIdealWhole
import proofs.«166687_j47588237639946_1_alg».proof.Proof.RefValue
import Idealize.ShloMosaic.Adequacy
import Idealize.ShloMosaic.Init

noncomputable section

namespace Cert.Proof

open Idealize.ShloMosaic Idealize.SL.Sem

/-- The kernel's program at the word-level instance runs to the end and leaves its arguments alone. -/
theorem frame_k : Cert.frame_Kernel := fun m ρ _ => Cert.Kernel.Fr.frame m ρ

/-- The same program read at the ideal instance. -/
theorem frame_ki : Cert.frame_KernelIdeal := fun m ρ _ => Cert.KernelIdeal.Fr.frame m ρ

/-- The reference is host operations only: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the fifteen arguments both programs end with the hidden array at the specification's
    `hiddenArr` and the cell array at its `cellArr` of those arguments. -/
theorem algebraic : Cert.algebraic_KernelIdeal_ReferenceIdeal := by
  intro m ρ m' ρ' _ hagree
  refine ⟨fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2⟩
  · rw [a0, a1, a2, a3, a4, a5, a6, a7, a8, a9, a10, a11, a12, a13, a14]
    exact Cert.ReferenceIdeal.RefValue.ref_hidden _ _ _ _ _ _ _ _ _ _ _ _ _ _ _
  · rw [a0, a1, a2, a3, a4, a5, a6, a7, a8, a9, a10, a11]
    exact Cert.ReferenceIdeal.RefValue.ref_cell _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
